-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x32, .f32⟩
  | .hbm, ⟨59, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Layer.lean ====
/-
  One SAGE layer, index by index over the extended reals.

  A layer takes the aggregated neighbour features  A  and the node's own features  X  (both [N, K]), two weight
  matrices  Wl, Wr  ([K, C]) and a bias row  b  (C numbers), and gives the [N, C] array

      y(n, c) = (Σ_k A(n, k) · Wl(k, c)) + b(c) + Σ_k X(n, k) · Wr(k, c),

  the first layer followed by the rectifier  max(y, 0).  Each row of the result depends on the same row of  A  and
  of  X  only. The host program spells a layer as two general products, the bias laid out over the rows, and two
  sums; that spelling is this function at every index (`host_layer_eq`, `host_relu_eq`).
-/
import Idealize.ShloMosaic.PureOps.Ideal.Laws
import Idealize.ShloMosaic.Lib.ValueIdx
import Idealize.ShloMosaic.Lib.ValueLayout
import Idealize.ShloMosaic.Lib.Pipeline.Value
import proofs.«145695_j49503793054393_1_alg».proof.Proof.LibDense
import proofs.«145695_j49503793054393_1_alg».proof.Proof.LibBiasRow

noncomputable section

open scoped BigOperators

namespace Cert.Sage

open Idealize.ShloMosaic Idealize.ShloMosaic.ValueIdx

variable {N K C : ℕ}

/-- A layer before its rectifier: both products, summed with the bias between them. -/
def layer (A X : FVec Ideal ⟨2, ![N, K]⟩ .f32) (Wl Wr : FVec Ideal ⟨2, ![K, C]⟩ .f32) (b : Fin C → EReal) :
    FVec Ideal ⟨2, ![N, C]⟩ .f32 :=
  fun i => (∑ k : Fin K, A (ix2 (i 0) k) * Wl (ix2 k (i 1))) + b (i 1) + ∑ k : Fin K, X (ix2 (i 0) k) * Wr (ix2 k (i 1))

/-- A layer followed by the rectifier. -/
def reluLayer (A X : FVec Ideal ⟨2, ![N, K]⟩ .f32) (Wl Wr : FVec Ideal ⟨2, ![K, C]⟩ .f32) (b : Fin C → EReal) :
    FVec Ideal ⟨2, ![N, C]⟩ .f32 :=
  fun i => max (layer A X Wl Wr b i) 0

theorem layer_apply (A X : FVec Ideal ⟨2, ![N, K]⟩ .f32) (Wl Wr : FVec Ideal ⟨2, ![K, C]⟩ .f32) (b : Fin C → EReal)
    (n : Fin N) (c : Fin C) :
    layer A X Wl Wr b (ix2 n c)
      = (∑ k : Fin K, A (ix2 n k) * Wl (ix2 k c)) + b c + ∑ k : Fin K, X (ix2 n k) * Wr (ix2 k c) := rfl

theorem reluLayer_apply (A X : FVec Ideal ⟨2, ![N, K]⟩ .f32) (Wl Wr : FVec Ideal ⟨2, ![K, C]⟩ .f32) (b : Fin C → EReal)
    (n : Fin N) (c : Fin C) :
    reluLayer A X Wl Wr b (ix2 n c)
      = max ((∑ k : Fin K, A (ix2 n k) * Wl (ix2 k c)) + b c + ∑ k : Fin K, X (ix2 n k) * Wr (ix2 k c)) 0 := rfl

/-- The host's spelling of a layer before its rectifier — the general product of the aggregate with `Wl`, the bias
    laid out as a [1, C] row and then over the N rows, the general product of the features with `Wr`, summed in that
    order — is `layer`. -/
theorem host_layer_eq (d : DotDims ⟨2, ![N, K]⟩ ⟨2, ![K, C]⟩ ⟨2, ![N, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral d none A Wl)
        (broadcastInDim ⟨2, ![N, C]⟩ ![0, 1] hb2 (broadcastInDim ⟨2, ![1, C]⟩ ![1] hb1 b)))
      (Host.dotGeneral d none X Wr)
      = layer A X Wl Wr (fun c => b (ix1 c)) := by
  funext i
  obtain ⟨n, c, rfl⟩ : ∃ (n : Fin N) (c : Fin C), i = ix2 n c := ⟨i 0, i 1, eq_ix2 i⟩
  rw [addf_apply, Dense.host_affine_apply d h1 h2 h3 h4 h5 h6 hb1 hb2,
    Dense.dotGeneral_plain_apply d h1 h2 h3 h4 h5 h6]
  rfl

/-- The host's rectifier — the maximum with the zero scalar laid out over the array — after a layer is `reluLayer`. -/
theorem host_relu_eq (hb0 : (⟨0, ![]⟩ : Shape).BroadcastsInDim ⟨2, ![N, C]⟩ (![] : Fin 0 → Fin 2))
    (A X : FVec Ideal ⟨2, ![N, K]⟩ .f32) (Wl Wr : FVec Ideal ⟨2, ![K, C]⟩ .f32) (b : Fin C → EReal) :
    maximumf (layer A X Wl Wr b)
        (broadcastInDim ⟨2, ![N, C]⟩ ![] hb0 (constant (F := Ideal) ⟨0, ![]⟩ .f32 0x00000000#32))
      = reluLayer A X Wl Wr b := by
  funext i
  exact Dense.host_relu_apply hb0 _ i

end Cert.Sage

end
-- ==== Proof.Region0.lean ====
/-
  The first layer's kernel: what its output array holds after the run, for ANY contents of the buffers at entry.

  The kernel runs over 10 grid points; point t loads rows [10000·t, 10000·t + 10000) of the aggregate and of the
  features, the two whole weight matrices and the whole [1, 64] bias row, and stores the same rows of the output.
  Its body computes, for block row p and column c,

      max( (Σ_k agg(p, k) · Wl(k, c)) + b(0, c) + Σ_k x(p, k) · Wr(k, c), 0 )

  (the narrowing of the matrix unit's operands changes nothing on the extended reals). Block row p of point t is
  array row 10000·t + p, so what point t writes back is block t of ONE whole-array function, the rectified layer
  `reluLayer` of the entry arrays; the 10 blocks tile the 100000 rows, so after the run the output array is that
  function.
-/
import proofs.«145695_j49503793054393_1_alg».proof.Proof.Gen.KernelIdeal.Frame
import proofs.«145695_j49503793054393_1_alg».proof.Proof.Layer
import Idealize.ShloMosaic.Lib.Pipeline.Value

set_option maxRecDepth 16384

noncomputable section

open scoped BigOperators

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

/-- The body's stored value at block row `p`, column `c`, from the five loaded blocks. -/
theorem pay_apply (x0 x1 : FVec Ideal S10000x64 .f32) (x2 x4 : FVec Ideal S64x64 .f32) (x3 : FVec Ideal S1x64 .f32)
    (p : Fin 10000) (c : Fin 64) :
    k0_pay1 (F := Ideal) x0 x1 x2 x4 x3 (ix2 p c)
      = max ((∑ k : Fin 64, x0 (ix2 p k) * x2 (ix2 k c)) + x3 (ix2 (0 : Fin 1) c)
          + ∑ k : Fin 64, x1 (ix2 p k) * x4 (ix2 k c)) 0 := by
  unfold k0_pay1
  rw [Dense.kernel_relu_apply, addf_apply, addf_apply, shapeCast_self, shapeCast_self,
    Dense.matmul_zero_plain_apply _ rfl rfl rfl rfl rfl rfl, Dense.matmul_zero_plain_apply _ rfl rfl rfl rfl rfl rfl,
    BiasRow.stretch_row_apply]
  rfl

variable (V : (c : Dev nD) → (b : Ref sig .tc) → Buf (Elt Ideal) ((c : Thread nD τ).loc b))

/-- The region's five input arrays as it finds them, at their literal types. -/
abbrev aggArr (c : Dev nD) : FVec Ideal S100000x64 .f32 := V c main_v24
abbrev xArr (c : Dev nD) : FVec Ideal S100000x64 .f32 := V c main_arg0
abbrev wlArr (c : Dev nD) : FVec Ideal S64x64 .f32 := V c main_arg2
abbrev bArr (c : Dev nD) : FVec Ideal S1x64 .f32 := V c main_v25
abbrev wrArr (c : Dev nD) : FVec Ideal S64x64 .f32 := V c main_arg4

/-- What the output array ends holding: the rectified layer of the entry arrays, the bias read off the [1, 64] row. -/
def out (c : Dev nD) : FVec Ideal S100000x64 .f32 :=
  reluLayer (aggArr V c) (xArr V c) (wlArr V c) (wrArr V c) (fun j => bArr V c (ix2 (0 : Fin 1) j))

theorem hz : (![0, 0] : Fin 2 → Nat) = fun _ => 0 := funext fun a => by fin_cases a <;> rfl

/-- The printed index maps over the 10 points: the row-blocked windows (aggregate, features, output) are at block
    row t, column block 0; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Array row of block row `p` at point `t`. -/
def row (t : Fin cfg0.N) (p : Fin 10000) : Fin 100000 := ⟨t.val * 10000 + p.val, by have := t.isLt; have := p.isLt; show _ < 100000; have : t.val < 10 := t.isLt; omega⟩

/-- Where each window's block at point `t` sits in its array. -/
theorem emb0 (t : Fin cfg0.N) (p : Fin 10000) (k : Fin 64) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega
theorem emb1 (t : Fin cfg0.N) (p : Fin 10000) (k : Fin 64) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega
theorem emb2 (t : Fin cfg0.N) (k : Fin 64) (j : Fin 64) :
    ((cfg0.win 2).blk t).view.emb (ix2 k j) = ix2 k j := by
  obtain ⟨-, -, -, -, e0, e1, -⟩ := idx_facts t
  funext a; apply Fin.ext
  match a with
  | ⟨0, _⟩ => show win0_2.index t (0 : Fin 2) * 64 + 1 * k.val = k.val; omega
  | ⟨1, _⟩ => show win0_2.index t (1 : Fin 2) * 64 + 1 * j.val = j.val; omega
theorem emb3 (t : Fin cfg0.N) (j : Fin 64) :
    ((cfg0.win 3).blk t).view.emb (ix2 (0 : Fin 1) j) = ix2 (0 : Fin 1) j := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 64 + 1 * j.val = j.val; omega
theorem emb4 (t : Fin cfg0.N) (k : Fin 64) (j : Fin 64) :
    ((cfg0.win 4).blk t).view.emb (ix2 k j) = ix2 k j := by
  obtain ⟨-, -, -, -, -, -, -, -, e0, e1, -⟩ := idx_facts t
  funext a; apply Fin.ext
  match a with
  | ⟨0, _⟩ => show win0_4.index t (0 : Fin 2) * 64 + 1 * k.val = k.val; omega
  | ⟨1, _⟩ => show win0_4.index t (1 : Fin 2) * 64 + 1 * j.val = j.val; omega
theorem emb5 (t : Fin cfg0.N) (p : Fin 10000) (j : Fin 64) :
    ((cfg0.win 5).blk t).view.emb (ix2 p j) = ix2 (row t p) j := by
  obtain ⟨-, -, -, -, -, -, -, -, -, -, e0, e1⟩ := idx_facts t
  funext a; apply Fin.ext
  match a with
  | ⟨0, _⟩ => show win0_5.index t (0 : Fin 2) * 10000 + 1 * p.val = t.val * 10000 + p.val; omega
  | ⟨1, _⟩ => show win0_5.index t (1 : Fin 2) * 64 + 1 * j.val = j.val; omega

/-- Each input block read at a block index is the entry array read where the block sits. -/
theorem read0 (c : Dev nD) (t : Fin cfg0.N) (p : Fin 10000) (k : Fin 64) :
    iblk0 V c 0 t (ix2 p k) = aggArr V c (ix2 (row t p) k) := by
  show V c main_v24 (((cfg0.win 0).blk t).view.emb (ix2 p k)) = _
  rw [emb0]
theorem read1 (c : Dev nD) (t : Fin cfg0.N) (p : Fin 10000) (k : Fin 64) :
    iblk0 V c 1 t (ix2 p k) = xArr V c (ix2 (row t p) k) := by
  show V c main_arg0 (((cfg0.win 1).blk t).view.emb (ix2 p k)) = _
  rw [emb1]
theorem read2 (c : Dev nD) (t : Fin cfg0.N) (k : Fin 64) (j : Fin 64) :
    iblk0 V c 2 t (ix2 k j) = wlArr V c (ix2 k j) := by
  show V c main_arg2 (((cfg0.win 2).blk t).view.emb (ix2 k j)) = _
  rw [emb2]
theorem read3 (c : Dev nD) (t : Fin cfg0.N) (j : Fin 64) :
    iblk0 V c 3 t (ix2 (0 : Fin 1) j) = bArr V c (ix2 (0 : Fin 1) j) := by
  show V c main_v25 (((cfg0.win 3).blk t).view.emb (ix2 (0 : Fin 1) j)) = _
  rw [emb3]
theorem read4 (c : Dev nD) (t : Fin cfg0.N) (k : Fin 64) (j : Fin 64) :
    iblk0 V c 4 t (ix2 k j) = wrArr V c (ix2 k j) := by
  show V c main_arg4 (((cfg0.win 4).blk t).view.emb (ix2 k j)) = _
  rw [emb4]

/-- What point `t` writes back is block `t` of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (pay_apply (iblk0 V c 0 t) (iblk0 V c 1 t) (iblk0 V c 2 t) (iblk0 V c 4 t) (iblk0 V c 3 t) p q).trans ?_
  show _ = out V c (((cfg0.win 5).blk t).view.emb (ix2 p q))
  rw [emb5]
  unfold out
  rw [reluLayer_apply]
  simp only [read0, read1, read2, read3, read4]

/-- An array index is in point `t`'s output block iff each coordinate is in the block's range. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every index of the output array is in the block of the point its row falls in. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by show _ < 10; omega⟩
  have ht : t.val = (i 0).val / 10000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE ARRAY after the run: the rectified layer of the entry arrays. -/
theorem final (c : Dev nD) : (dat0 V c).arrAt 5 cfg0.N = out V c :=
  (dat0 V c).arrAt_eq_of_cover 5 (out V c) (fun t _ => flushed_eq V c t) cover

end Cert.Sage.Region0

end
-- ==== Proof.KHost.lean ====
/-
  The kernel program's host stretches, read as values.

  Before the first region the host computes, from the edge list  e  ([2, E] words: sources in row 0, destinations
  in row 1) and the features  x :  the in-degree of every node (a scatter-add of ones at the destinations), its
  reciprocal  1 / max(deg, 1),  and the mean aggregate  agg₁ = segsum(x[src]) · (1 / max(deg, 1))  — the gathered
  source rows scatter-added at the destinations, each row then scaled by its node's reciprocal. Between the regions
  it computes the same aggregate of the first region's output  h  with the same reciprocal. A negative source index is
  wrapped by the node count before the gather; the destinations are used as they are. Here each buffer a region
  reads is named as that function of the launch memory (`aggOf`), and the two regions' output arrays are read through
  the boundary contents as the layers of `Region0` and `Region1`; `result_eq` is the result array after the run.
-/
import proofs.«145695_j49503793054393_1_alg».proof.Proof.Gen.KernelIdeal.Frame
import proofs.«145695_j49503793054393_1_alg».proof.Proof.Region0
import proofs.«145695_j49503793054393_1_alg».proof.Proof.Region1
import proofs.«145695_j49503793054393_1_alg».proof.Proof.KRun
import Idealize.ShloMosaic.Lib.StableHlo.Run

set_option maxRecDepth 16384

noncomputable section

namespace Cert.Sage.KHost

open Cert.KernelIdeal Cert.KernelIdeal.Gen Idealize.ShloMosaic Idealize.ShloMosaic.TcCoe Idealize.SL.Sem
open Idealize.ShloMosaic.StableHlo Idealize.ShloMosaic.ValueIdx

/-- Row `r` of the edge list as a vector of E words. -/
def edgeRow0 (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def edgeRow1 (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- A vector of N ones. -/
def ones : FVec Ideal S100000 .f32 := broadcastInDim S100000 ![] bcast_S_S100000 (constant S_ .f32 0x3F800000#32)

/-- The in-degree: ones scatter-added at the destinations into zeros. -/
def degOf (d : (⟨S1600000, .i32⟩ : BufTy).Contents (Elt Ideal)) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The reciprocal  1 / max(deg, 1). -/
def invOf (d : (⟨S1600000, .i32⟩ : BufTy).Contents (Elt Ideal)) : FVec Ideal S100000 .f32 :=
  Host.divf ones (maximumf (degOf d) ones)

/-- The sum over incoming edges: the rows of `X` gathered at the (wrapped) sources `s`, scatter-added at the
    destinations `d` into zeros. -/
def segSum (X : FVec Ideal S100000x64 .f32) (s d : (⟨S1600000, .i32⟩ : BufTy).Contents (Elt Ideal)) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The mean aggregate as this program spells it: the sums times the laid-out per-node number `inv`. -/
def aggOf (X : FVec Ideal S100000x64 .f32) (s d : (⟨S1600000, .i32⟩ : BufTy).Contents (Elt Ideal))
    (inv : FVec Ideal S100000 .f32) : FVec Ideal S100000x64 .f32 :=
  mulf (segSum X s d)
    (broadcastInDim S100000x64 ![0, 1] bcast_S100000x1_S100000x64_0_1 (broadcastInDim S100000x1 ![0] bcast_S100000_S100000x1_0 inv))

variable (m : (ℓ : Loc nD τ sig) → Buf (Elt Ideal) ℓ) (ρ : Dev nD → PrngReg)

/-! ## Before the first region -/

set_option maxHeartbeats 4000000

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results_simp <;> rfl
theorem W1_v11 (c : Dev nD) : W1 m ρ c (Proc.devRef .tc main_v11) = invOf (edgeRow1 (m ((c : Thread nD τ).loc main_arg1))) := by
  show StableHlo.after hostOps0 (W0 m ρ c) (Proc.devRef .tc main_v11) = _
  after_results_simp <;> rfl
theorem W1_v24 (c : Dev nD) : W1 m ρ c (Proc.devRef .tc main_v24)
    = aggOf (m ((c : Thread nD τ).loc main_arg0)) (edgeRow0 (m ((c : Thread nD τ).loc main_arg1)))
        (edgeRow1 (m ((c : Thread nD τ).loc main_arg1))) (invOf (edgeRow1 (m ((c : Thread nD τ).loc main_arg1)))) := by
  show StableHlo.after hostOps0 (W0 m ρ c) (Proc.devRef .tc main_v24) = _
  after_results_simp <;> rfl
theorem W1_v25 (c : Dev nD) : W1 m ρ c (Proc.devRef .tc main_v25)
    = shapeCast S1x64 (m ((c : Thread nD τ).loc main_arg3)) shapeCasts_S64_S1x64 := by
  show StableHlo.after hostOps0 (W0 m ρ c) (Proc.devRef .tc main_v25) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## After the first region -/

/-- The hidden features: the rectified first layer of the mean aggregate of the features, the bias read off the
    [1, 64] row the host makes of it. -/
def hidden (c : Dev nD) : FVec Ideal S100000x64 .f32 :=
  reluLayer (N := 100000) (K := 64) (C := 64)
    (aggOf (m ((c : Thread nD τ).loc main_arg0)) (edgeRow0 (m ((c : Thread nD τ).loc main_arg1)))
      (edgeRow1 (m ((c : Thread nD τ).loc main_arg1))) (invOf (edgeRow1 (m ((c : Thread nD τ).loc main_arg1)))))
    (m ((c : Thread nD τ).loc main_arg0)) (m ((c : Thread nD τ).loc main_arg2)) (m ((c : Thread nD τ).loc main_arg4))
    (fun j => shapeCast S1x64 (m ((c : Thread nD τ).loc main_arg3)) shapeCasts_S64_S1x64 (ix2 (0 : Fin 1) j))

/-- The first region's output array at its exit is the hidden features. -/
theorem W2_v26 (c : Dev nD) : W2 m ρ c (Proc.devRef .tc main_v26) = hidden m c := by
  refine (W2_arr m ρ c 5).trans ((Region0.final (V1 m ρ) c).trans ?_)
  show reluLayer (N := 100000) (K := 64) (C := 64) (W1 m ρ c (Proc.devRef .tc main_v24)) (W1 m ρ c (Proc.devRef .tc main_arg0))
    (W1 m ρ c (Proc.devRef .tc main_arg2)) (W1 m ρ c (Proc.devRef .tc main_arg4))
    (fun j => W1 m ρ c (Proc.devRef .tc main_v25) (ix2 (0 : Fin 1) j)) = _
  rw [W1_v24, W1_arg0, W1_arg2, W1_arg4, W1_v25]
  rfl

/-! ## Before the second region -/

theorem W3_v39 (c : Dev nD) : W3 m ρ c (Proc.devRef .tc main_v39)
    = aggOf (hidden m c) (edgeRow0 (m ((c : Thread nD τ).loc main_arg1)))
        (edgeRow1 (m ((c : Thread nD τ).loc main_arg1))) (invOf (edgeRow1 (m ((c : Thread nD τ).loc main_arg1)))) := by
  rw [← W2_v26 m ρ c, ← W1_v11 m ρ c, ← W1_v1 m ρ c, ← W1_v3 m ρ c,
    ← W2_of_ne m ρ c main_v1 (by decide), ← W2_of_ne m ρ c main_v3 (by decide), ← W2_of_ne m ρ c main_v11 (by decide)]
  show StableHlo.after hostOps1 (W2 m ρ c) (Proc.devRef .tc main_v39) = _
  after_results_simp <;> rfl
theorem W3_v26 (c : Dev nD) : W3 m ρ c (Proc.devRef .tc main_v26) = hidden m c := by
  rw [← W2_v26 m ρ c]
  show StableHlo.after hostOps1 (W2 m ρ c) (Proc.devRef .tc main_v26) = _
  after_results_simp <;> rfl
theorem W3_arg5 (c : Dev nD) : W3 m ρ c (Proc.devRef .tc main_arg5) = m ((c : Thread nD τ).loc main_arg5) := by
  rw [← W1_arg5 m ρ c, ← W2_of_ne m ρ c main_arg5 (by decide)]
  show StableHlo.after hostOps1 (W2 m ρ c) (Proc.devRef .tc main_arg5) = _
  after_results_simp <;> rfl
theorem W3_arg7 (c : Dev nD) : W3 m ρ c (Proc.devRef .tc main_arg7) = m ((c : Thread nD τ).loc main_arg7) := by
  rw [← W1_arg7 m ρ c, ← W2_of_ne m ρ c main_arg7 (by decide)]
  show StableHlo.after hostOps1 (W2 m ρ c) (Proc.devRef .tc main_arg7) = _
  after_results_simp <;> rfl
theorem W3_v40 (c : Dev nD) : W3 m ρ c (Proc.devRef .tc main_v40)
    = shapeCast S1x32 (m ((c : Thread nD τ).loc main_arg6)) shapeCasts_S32_S1x32 := by
  rw [← W1_arg6 m ρ c, ← W2_of_ne m ρ c main_arg6 (by decide)]
  show StableHlo.after hostOps1 (W2 m ρ c) (Proc.devRef .tc main_v40) = _
  after_results_simp <;> rfl

/-! ## After the second region: the result -/

/-- The result: the second layer of the mean aggregate of the hidden features, the bias read off the [1, 32] row. -/
def result (c : Dev nD) : FVec Ideal S100000x32 .f32 :=
  layer (N := 100000) (K := 64) (C := 32)
    (aggOf (hidden m c) (edgeRow0 (m ((c : Thread nD τ).loc main_arg1)))
      (edgeRow1 (m ((c : Thread nD τ).loc main_arg1))) (invOf (edgeRow1 (m ((c : Thread nD τ).loc main_arg1)))))
    (hidden m c) (m ((c : Thread nD τ).loc main_arg5)) (m ((c : Thread nD τ).loc main_arg7))
    (fun j => shapeCast S1x32 (m ((c : Thread nD τ).loc main_arg6)) shapeCasts_S32_S1x32 (ix2 (0 : Fin 1) j))

/-- The result array at the last boundary is `result`. -/
theorem result_eq (c : Dev nD) : W4 m ρ c (Proc.devRef .tc main_v41) = result m c := by
  refine (W4_arr m ρ c 5).trans ((Region1.final (V3 m ρ) c).trans ?_)
  show layer (N := 100000) (K := 64) (C := 32) (W3 m ρ c (Proc.devRef .tc main_v39)) (W3 m ρ c (Proc.devRef .tc main_v26))
    (W3 m ρ c (Proc.devRef .tc main_arg5)) (W3 m ρ c (Proc.devRef .tc main_arg7))
    (fun j => W3 m ρ c (Proc.devRef .tc main_v40) (ix2 (0 : Fin 1) j)) = _
  rw [W3_v39, W3_v26, W3_arg5, W3_arg7, W3_v40]
  rfl

/-- The run of the idealized kernel program, its result named: every weakly fair execution terminates with the result
    array at `result` of the launch memory and the arguments as launched. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.Sage.KRun.run_main m ρ)

end Cert.Sage.KHost

end
-- ==== Proof.RefValue.lean ====
/-
  The reference program read as two SAGE layers.

  The reference computes, for features  x  and edge list  e :  the mean aggregate  agg(x) = segsum(x[src]) / max(deg, 1)
  (the gathered source rows scatter-added at the destinations, each row divided by its node's clamped in-degree), the
  hidden features  h = max(agg(x) · W1l + b1l + x · W1r, 0),  and the result  agg(h) · W2l + b2l + h · W2r.  Its second
  layer recomputes the degree and the index columns with the same operations on the same edge list, so both layers use
  ONE aggregate function `aggR`; and each layer's products, bias layout and sums are the function `layer` index by index.
-/
import proofs.«145695_j49503793054393_1_alg».proof.Proof.Gen.ReferenceIdeal.Read
import proofs.«145695_j49503793054393_1_alg».proof.Proof.Layer

noncomputable section

namespace Cert.Sage.Ref

open Cert.ReferenceIdeal Cert.ReferenceIdeal.Gen Cert.ReferenceIdeal.Read
open Idealize.ShloMosaic Idealize.ShloMosaic.TcCoe Idealize.SL.Sem Idealize.ShloMosaic.ValueIdx
open Cert.ReferenceIdeal.Facts₀ Cert.ReferenceIdeal.Facts

/-- The mean aggregate of a feature array as the reference spells it: the sums over incoming edges divided by the
    laid-out  max(deg, 1). -/
def aggR (X : FVec Ideal S100000x64 .f32) (e : (⟨S2x1600000, .i32⟩ : BufTy).Contents (Elt Ideal)) : FVec Ideal S100000x64 .f32 :=
  Host.divf
    (Host.scatterAdd scatter_S100000x64_S1600000x1_S1600000x64_1_0_0_1 (val_main_v11 (F := Ideal)) (val_main_v12 (F := Ideal) e)
      (Host.gather gather_S100000x64_S1600000x1_S1600000x64_1_0_n_n_0_1_164 X (val_main_v9 (F := Ideal) e)))
    (val_main_v21 (F := Ideal) e)

variable (x : FVec Ideal S100000x64 .f32) (e : (⟨S2x1600000, .i32⟩ : BufTy).Contents (Elt Ideal))
  (W1l W1r : FVec Ideal S64x64 .f32) (b1l : FVec Ideal S64 .f32) (W2l W2r : FVec Ideal S64x32 .f32) (b2l : FVec Ideal S32 .f32)

/-- The first layer's aggregate is `aggR` of the features. -/
theorem v22_eq : val_main_v22 (F := Ideal) x e = aggR x e := rfl

/-- The hidden features: the rectified first layer. -/
theorem v29_eq : val_main_v29 (F := Ideal) x e W1l b1l W1r = reluLayer (aggR x e) x W1l W1r (fun j => b1l (ix1 j)) := by
  unfold val_main_v29 val_main_v28 val_main_v26 val_main_v23 val_main_v27 val_main_v25 val_main_v24 val_main_call0_v0 val_main_call0_cst
  rw [v22_eq, host_layer_eq _ rfl rfl rfl rfl rfl rfl, host_relu_eq]

/-- The second layer's aggregate is the same `aggR`, of the hidden features: the second copies of the index columns,
    of the zeros and of the clamped degree are the first ones' operations again. -/
theorem v48_eq : val_main_v48 (F := Ideal) x e W1l b1l W1r = aggR (val_main_v29 (F := Ideal) x e W1l b1l W1r) e := rfl

/-- The result: the second layer of the hidden features. -/
theorem v54_eq : val_main_v54 (F := Ideal) x e W1l b1l W1r W2l b2l W2r
    = layer (aggR (val_main_v29 (F := Ideal) x e W1l b1l W1r) e) (val_main_v29 (F := Ideal) x e W1l b1l W1r) W2l W2r (fun j => b2l (ix1 j)) := by
  unfold val_main_v54 val_main_v52 val_main_v49 val_main_v53 val_main_v51 val_main_v50
  rw [v48_eq, host_layer_eq _ rfl rfl rfl rfl rfl rfl]

end Cert.Sage.Ref

end
-- ==== Proof.Scale.lean ====
/-
  Mean aggregation, two spellings.

  A node's aggregate is the sum S of its incoming messages divided by  d = max(deg, 1),  where deg is the number of
  incoming edges. One program divides:  S / d.  The other multiplies by the reciprocal computed once:  S · (1 / d).
  On the extended reals a quotient by a number other than zero is the product with its inverse, so  1 / d = d⁻¹  and
  S · (1 / d) = S · d⁻¹ = S / d,  for every S, the infinities included; and  d ≥ 1  is never zero, whatever deg is.
  Both programs lay the per-node number out over the feature columns by the same two layouts, which only re-index.
-/
import Idealize.ShloMosaic.PureOps.Ideal.Laws
import Idealize.ShloMosaic.Lib.ValueIdx

noncomputable section

namespace Cert.Sage

open Idealize.ShloMosaic Idealize.ShloMosaic.ValueIdx

/-- The single-precision word 0x3F800000 is the number 1. -/
theorem ofBits_one : Ideal.ofBits .f32 0x3F800000#32 = (1 : EReal) := by
  simp [Ideal.ofBits, Ideal.ieee, -EReal.coe_mul]
  norm_num

/-- Off zero, multiplying by the reciprocal is dividing. -/
theorem mul_div_one (a d : EReal) (hd : d ≠ 0) : a * Ideal.div 1 d = Ideal.div a d := by
  unfold Ideal.div
  rw [if_neg hd, if_neg hd, one_mul]

/-- A maximum with 1 is at least 1, so it is not zero. -/
theorem max_one_ne_zero (x : EReal) : max x 1 ≠ 0 :=
  ne_of_gt (lt_of_lt_of_le zero_lt_one (le_max_right x 1))

/-- The two spellings of the mean agree as whole arrays: the sums `S` times the laid-out reciprocal of
    `max(deg, 1)` is `S` over the laid-out `max(deg, 1)`. `one` and `one'` are arrays of ones. -/
theorem scale_eq {sV sC sA : Shape} (dims1 : Fin sV.rank → Fin sC.rank) (h1 : sV.BroadcastsInDim sC dims1)
    (dims2 : Fin sC.rank → Fin sA.rank) (h2 : sC.BroadcastsInDim sA dims2)
    (S : FVec Ideal sA .f32) (deg one one' : FVec Ideal sV .f32)
    (h : ∀ j, one j = 1) (h' : ∀ j, one' j = 1) :
    mulf S (broadcastInDim sA dims2 h2 (broadcastInDim sC dims1 h1 (Host.divf one (maximumf deg one'))))
      = Host.divf S (broadcastInDim sA dims2 h2 (broadcastInDim sC dims1 h1 (maximumf deg one'))) := by
  funext i
  show S i * Ideal.div (one _) (max (deg _) (one' _)) = Ideal.div (S i) (max (deg _) (one' _))
  rw [h, h']
  exact mul_div_one _ _ (max_one_ne_zero _)

end Cert.Sage

end
-- ==== Proof.Bridge.lean ====
/-
  The two programs compute one function.

  Both programs are two SAGE layers over the same sums over incoming edges. They differ in one place: the kernel
  program multiplies the sums by the reciprocal  1 / max(deg, 1)  computed once, the reference divides them by
  max(deg, 1)  in each layer. On the extended reals these agree for every value of the sums, because  max(deg, 1) ≥ 1
  is not zero (`scale_eq`); the index columns, the zeros, the ones and the degree are the same operations of the edge
  list in both. The kernel program hands each layer its bias as a [1, C] row, the reference lays the [C] vector out
  itself; entry (0, c) of the row is entry c of the vector. So the hidden features agree, then the aggregates of the
  hidden features, then the results.
-/
import proofs.«145695_j49503793054393_1_alg».proof.Proof.KHost
import proofs.«145695_j49503793054393_1_alg».proof.Proof.RefValue
import proofs.«145695_j49503793054393_1_alg».proof.Proof.Scale

noncomputable section

namespace Cert.Sage.Bridge

open Idealize.ShloMosaic Idealize.ShloMosaic.TcCoe Idealize.SL.Sem Idealize.ShloMosaic.ValueIdx
open Cert.KernelIdeal (nD τ sig main_arg0 main_arg1 main_arg2 main_arg3 main_arg4 main_arg5 main_arg6 main_arg7)

/-- Every entry of the kernel program's vector of ones is the number 1. -/
theorem ones_apply (j : Cert.KernelIdeal.S100000.Idx) : KHost.ones j = 1 := by
  show Ideal.ofBits .f32 0x3F800000#32 = 1
  exact ofBits_one

/-- The two programs' mean aggregates are one function of the feature array and the edge list. -/
theorem agg_eq (X : FVec Ideal Cert.KernelIdeal.S100000x64 .f32)
    (e : (⟨Cert.KernelIdeal.S2x1600000, .i32⟩ : BufTy).Contents (Elt Ideal)) :
    KHost.aggOf X (KHost.edgeRow0 e) (KHost.edgeRow1 e) (KHost.invOf (KHost.edgeRow1 e)) = Ref.aggR X e := by
  unfold KHost.aggOf KHost.invOf
  rw [scale_eq _ _ _ _ _ _ _ _ ones_apply ones_apply]
  rfl

variable (m : (ℓ : Loc nD τ sig) → Buf (Elt Ideal) ℓ)

/-- The hidden features agree. -/
theorem hidden_eq (c : Dev nD) :
    KHost.hidden m c = Cert.ReferenceIdeal.Read.val_main_v29 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  unfold KHost.hidden
  rw [Ref.v29_eq, agg_eq]
  exact congrArg (reluLayer _ _ _ _) (funext fun j => BiasRow.cast_row_apply _ _ j)

/-- The results agree. -/
theorem result_eq (c : Dev nD) :
    KHost.result m c = Cert.ReferenceIdeal.Read.val_main_v54 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  unfold KHost.result
  rw [Ref.v54_eq, hidden_eq, agg_eq]
  exact congrArg (layer _ _ _ _) (funext fun j => BiasRow.cast_row_apply _ _ j)

end Cert.Sage.Bridge

end
-- ==== Proof.lean ====
/- The proof of `Cert.Claim`: a two-layer GraphSAGE network with mean aggregation, its dense per-node part in two
   Pallas kernels, against the plain jnp reference.

   Each layer is  y = mean_agg(v) · Wl + b + v · Wr  (the first followed by max(·, 0)), where mean_agg sums the rows of
   v over each node's incoming edges and divides by max(in-degree, 1). The kernel program computes the gather, the
   scatter-add and the degree on the host exactly as the reference does, multiplies by the reciprocal 1 / max(deg, 1)
   where the reference divides, and hands the aggregate and v to a kernel that computes the two products row block by
   row block (operands narrowed to bf16, which is the identity on the extended reals). At the ideal instance:
   a product with the reciprocal of a number ≥ 1 is the quotient (Proof/Scale.lean); a kernel's ten row blocks are
   the blocks of one whole-array layer function (Proof/Region0.lean, Proof/Region1.lean over Proof/Layer.lean); the
   host stretches between are read as values (Proof/KHost.lean); the reference is the same two layers
   (Proof/RefValue.lean); and the two results are one function of the arguments (Proof/Bridge.lean). The frames of
   the two kernel programs are the generated ones; the reference's frame is its generated run with the result dropped;
   the ideal pass rewrote nothing, so `preserves` is trivial. -/
import proofs.«145695_j49503793054393_1_alg».proof.Defs
import proofs.«145695_j49503793054393_1_alg».proof.Proof.Gen.Kernel
import proofs.«145695_j49503793054393_1_alg».proof.Proof.Gen.Kernel.Skeleton
import proofs.«145695_j49503793054393_1_alg».proof.Proof.Gen.Kernel.Launch
import proofs.«145695_j49503793054393_1_alg».proof.Proof.Gen.Kernel.Points
import proofs.«145695_j49503793054393_1_alg».proof.Proof.Gen.Kernel.Frame
import proofs.«145695_j49503793054393_1_alg».proof.Proof.Gen.KernelIdeal
import proofs.«145695_j49503793054393_1_alg».proof.Proof.Gen.KernelIdeal.Skeleton
import proofs.«145695_j49503793054393_1_alg».proof.Proof.Gen.KernelIdeal.Launch
import proofs.«145695_j49503793054393_1_alg».proof.Proof.Gen.KernelIdeal.Points
import proofs.«145695_j49503793054393_1_alg».proof.Proof.Gen.KernelIdeal.Frame
import proofs.«145695_j49503793054393_1_alg».proof.Proof.Gen.ReferenceIdeal
import proofs.«145695_j49503793054393_1_alg».proof.Proof.Gen.Pre_finite_inputs
import proofs.«145695_j49503793054393_1_alg».proof.Proof.Gen.ReferenceIdeal.Run
import proofs.«145695_j49503793054393_1_alg».proof.Proof.Gen.ReferenceIdeal.Read
import proofs.«145695_j49503793054393_1_alg».proof.Proof.KHost
import proofs.«145695_j49503793054393_1_alg».proof.Proof.Bridge
import Idealize.ShloMosaic.Adequacy
import Idealize.ShloMosaic.Init

noncomputable section

namespace Cert.Proof

open Idealize.ShloMosaic Idealize.SL.Sem Cert.Kernel

/-- At the ideal instance both programs end with the result array at the kernel program's `result` of the launch
    memory: the kernel program by its run, the reference by its generated run, whose term is the same function of the
    (agreeing) arguments. -/
theorem algebraic : Cert.algebraic_KernelIdeal_ReferenceIdeal := by
  intro m ρ m' ρ' _ hagree
  refine ⟨fun c => Cert.Sage.KHost.result m c, Cert.Sage.KHost.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Bridge.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
